-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x8x6 : Shape := ⟨3, ![512, 8, 6]⟩
abbrev S_ : Shape := ⟨0, ![]⟩

class Facts : Prop where
  bcast_S_S512x8x6 : S_.BroadcastsInDim S512x8x6 (![] : Fin 0 → Fin S512x8x6.rank)
  reducesTo_S512x8x6_S_d0_1_2 : S512x8x6.ReducesTo [0, 1, 2] S_
  h_S_ : 0 < S_.numel

variable [Facts]

def fn {F : FTy → Type} [FloatOps F] (main_arg0 : FVec F S512x8x6 .f32) : IVec S_ 1 :=
  let main_v0 : FVec F S512x8x6 .f32 := Host.absf main_arg0
  let main_cst : FVec F S_ .f32 := constant S_ .f32 0x7F800000#32
  let main_v1 : FVec F S512x8x6 .f32 := broadcastInDim S512x8x6 ![] bcast_S_S512x8x6 main_cst
  let main_v2 : IVec S512x8x6 1 := cmpf .olt main_v0 main_v1
  let main_c : IVec S_ 1 := constantI S_ 1 1#1
  let main_v3 : IVec S_ 1 := (fun x v => Host.reduce IntOp.andi x v reducesTo_S512x8x6_S_d0_1_2 h_S_) main_v2 main_c
  main_v3
-- ==== Kernel.lean ====
abbrev S512x8x6 : Shape := ⟨3, ![512, 8, 6]⟩
abbrev S512x262144 : Shape := ⟨2, ![512, 262144]⟩
abbrev S8x8x6 : Shape := ⟨3, ![8, 8, 6]⟩
abbrev S8x4096 : Shape := ⟨2, ![8, 4096]⟩
abbrev S8x8x1 : Shape := ⟨3, ![8, 8, 1]⟩
abbrev S8x8 : Shape := ⟨2, ![8, 8]⟩
abbrev S8x1 : Shape := ⟨2, ![8, 1]⟩
abbrev S8x64 : Shape := ⟨2, ![8, 64]⟩
abbrev S8x512 : Shape := ⟨2, ![8, 512]⟩
abbrev S8 : Shape := ⟨1, ![8]⟩

abbrev nBuf : Space → Nat
  | .hbm => 2
  | .vmem => 4
  | .smem => 0
  | _ => 0

abbrev bufTy : (tb : Table) → Fin (tcTables nBuf tb) → BufTy
  | .hbm, ⟨0, _⟩ => ⟨S512x8x6, .f32⟩
  | .hbm, ⟨1, _⟩ => ⟨S512x262144, .f32⟩
  | .local _ .vmem, ⟨0, _⟩ => ⟨S8x8x6, .f32⟩
  | .local _ .vmem, ⟨1, _⟩ => ⟨S8x8x6, .f32⟩
  | .local _ .vmem, ⟨2, _⟩ => ⟨S8x4096, .f32⟩
  | .local _ .vmem, ⟨3, _⟩ => ⟨S8x4096, .f32⟩
  | _, _ => ⟨S512x8x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨3, ![64, 8, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  ![arg0.toNat, v1.toNat]

abbrev stage0_0 : Fin 2 → Memref sig .tc .vmem S8x8x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

class Facts₀ : Prop where
  inb_S8x8x6_S8x8x6_0_0_0 : ∀ a, (![0, 0, 0] : Fin 3 → Nat) a + S8x8x6.size a ≤ S8x8x6.size a
  h_S8x8x6 : 0 < S8x8x6.numel
  slices_S8x8x6_o0_0_0_S8x8x1 : S8x8x6.Slices ![0, 0, 0] S8x8x1
  shapeCasts_S8x8x1_S8x8 : S8x8x1.ShapeCasts S8x8
  slices_S8x8x6_o0_0_1_S8x8x1 : S8x8x6.Slices ![0, 0, 1] S8x8x1
  slices_S8x8x6_o0_0_2_S8x8x1 : S8x8x6.Slices ![0, 0, 2] S8x8x1
  slices_S8x8x6_o0_0_3_S8x8x1 : S8x8x6.Slices ![0, 0, 3] S8x8x1
  slices_S8x8x6_o0_0_4_S8x8x1 : S8x8x6.Slices ![0, 0, 4] S8x8x1
  slices_S8x8x6_o0_0_5_S8x8x1 : S8x8x6.Slices ![0, 0, 5] S8x8x1
  slices_S8x8_o0_0_S8x1 : S8x8.Slices ![0, 0] S8x1
  broadcasts_S8x1_S8x8 : S8x1.Broadcasts S8x8
  slices_S8x8_o0_1_S8x1 : S8x8.Slices ![0, 1] S8x1
  slices_S8x8_o0_2_S8x1 : S8x8.Slices ![0, 2] S8x1
  slices_S8x8_o0_3_S8x1 : S8x8.Slices ![0, 3] S8x1
  slices_S8x8_o0_4_S8x1 : S8x8.Slices ![0, 4] S8x1
  slices_S8x8_o0_5_S8x1 : S8x8.Slices ![0, 5] S8x1
  slices_S8x8_o0_6_S8x1 : S8x8.Slices ![0, 6] S8x1
  slices_S8x8_o0_7_S8x1 : S8x8.Slices ![0, 7] S8x1
  concatenates_S8x8_S8x8_S8x8_S8x8_S8x8_S8x8_S8x8_S8x8_S8x64_d1 : Shape.Concatenates [S8x8, S8x8, S8x8, S8x8, S8x8, S8x8, S8x8, S8x8] S8x64 1
  broadcasts_S8x1_S8x64 : S8x1.Broadcasts S8x64
  concatenates_S8x64_S8x64_S8x64_S8x64_S8x64_S8x64_S8x64_S8x64_S8x512_d1 : Shape.Concatenates [S8x64, S8x64, S8x64, S8x64, S8x64, S8x64, S8x64, S8x64] S8x512 1
  broadcasts_S8x1_S8x512 : S8x1.Broadcasts S8x512
  concatenates_S8x512_S8x512_S8x512_S8x512_S8x512_S8x512_S8x512_S8x512_S8x4096_d1 : Shape.Concatenates [S8x512, S8x512, S8x512, S8x512, S8x512, S8x512, S8x512, S8x512] S8x4096 1
  iota_S8x8_d1_w32 : S8x8.Iotas .tc 32 [1]
  reduces_S8x8_S8 : S8x8.Reduces [1] S8
  shapeCasts_S8_S8x1 : S8.ShapeCasts S8x1
  broadcasts_S8x1_S8x4096 : S8x1.Broadcasts S8x4096
  inb_S8x4096_S8x4096_0_0 : ∀ a, (![0, 0] : Fin 2 → Nat) a + S8x4096.size a ≤ S8x4096.size a
  h_S8x4096 : 0 < S8x4096.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x8x6.size a ≤ S512x8x6.size a
  hwx0_0 : ∀ i : grid0.Coords, EltTy.bits .f32 = 32 ∨ (Rect.block (s := S512x8x6) S8x8x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x4096.size a ≤ S512x262144.size a
  hwx0_1 : ∀ i : grid0.Coords, EltTy.bits .f32 = 32 ∨ (Rect.block (s := S512x262144) S8x4096.size (cc0_transform_1 i) (hinb0_1 i)).WholeWords (EltTy.packing .f32)

variable [Facts₀]

abbrev win0_0 : Pipeline.Window sig grid0 :=
  Pipeline.Window.ofSpec (Memref.whole main_arg0) S8x8x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x8x6 : Shape := ⟨3, ![512, 8, 6]⟩
abbrev S512x8x1 : Shape := ⟨3, ![512, 8, 1]⟩
abbrev S512x8 : Shape := ⟨2, ![512, 8]⟩
abbrev S512x1x8 : Shape := ⟨3, ![512, 1, 8]⟩
abbrev S512x8x8 : Shape := ⟨3, ![512, 8, 8]⟩
abbrev S512x64 : Shape := ⟨2, ![512, 64]⟩
abbrev S512x64x1 : Shape := ⟨3, ![512, 64, 1]⟩
abbrev S512x64x8 : Shape := ⟨3, ![512, 64, 8]⟩
abbrev S512x512 : Shape := ⟨2, ![512, 512]⟩
abbrev S512x512x1 : Shape := ⟨3, ![512, 512, 1]⟩
abbrev S512x512x8 : Shape := ⟨3, ![512, 512, 8]⟩
abbrev S512x4096 : Shape := ⟨2, ![512, 4096]⟩
abbrev S512x4096x1 : Shape := ⟨3, ![512, 4096, 1]⟩
abbrev S512x4096x8 : Shape := ⟨3, ![512, 4096, 8]⟩
abbrev S512x32768 : Shape := ⟨2, ![512, 32768]⟩
abbrev S512x32768x1 : Shape := ⟨3, ![512, 32768, 1]⟩
abbrev S512x32768x8 : Shape := ⟨3, ![512, 32768, 8]⟩
abbrev S512x262144 : Shape := ⟨2, ![512, 262144]⟩

abbrev nBuf : Space → Nat
  | .hbm => 43
  | .vmem => 0
  | .smem => 0
  | _ => 0

abbrev bufTy : (tb : Table) → Fin (tcTables nBuf tb) → BufTy
  | .hbm, ⟨0, _⟩ => ⟨S512x8x6, .f32⟩
  | .hbm, ⟨1, _⟩ => ⟨S512x8x1, .f32⟩
  | .hbm, ⟨2, _⟩ => ⟨S512x8, .f32⟩
  | .hbm, ⟨3, _⟩ => ⟨S512x8x1, .f32⟩
  | .hbm, ⟨4, _⟩ => ⟨S512x8x1, .f32⟩
  | .hbm, ⟨5, _⟩ => ⟨S512x8, .f32⟩
  | .hbm, ⟨6, _⟩ => ⟨S512x1x8, .f32⟩
  | .hbm, ⟨7, _⟩ => ⟨S512x8x8, .f32⟩
  | .hbm, ⟨8, _⟩ => ⟨S512x8x8, .f32⟩
  | .hbm, ⟨9, _⟩ => ⟨S512x8x8, .f32⟩
  | .hbm, ⟨10, _⟩ => ⟨S512x64, .f32⟩
  | .hbm, ⟨11, _⟩ => ⟨S512x64x1, .f32⟩
  | .hbm, ⟨12, _⟩ => ⟨S512x8x1, .f32⟩
  | .hbm, ⟨13, _⟩ => ⟨S512x8, .f32⟩
  | .hbm, ⟨14, _⟩ => ⟨S512x1x8, .f32⟩
  | .hbm, ⟨15, _⟩ => ⟨S512x64x8, .f32⟩
  | .hbm, ⟨16, _⟩ => ⟨S512x64x8, .f32⟩
  | .hbm, ⟨17, _⟩ => ⟨S512x64x8, .f32⟩
  | .hbm, ⟨18, _⟩ => ⟨S512x512, .f32⟩
  | .hbm, ⟨19, _⟩ => ⟨S512x512x1, .f32⟩
  | .hbm, ⟨20, _⟩ => ⟨S512x8x1, .f32⟩
  | .hbm, ⟨21, _⟩ => ⟨S512x8, .f32⟩
  | .hbm, ⟨22, _⟩ => ⟨S512x1x8, .f32⟩
  | .hbm, ⟨23, _⟩ => ⟨S512x512x8, .f32⟩
  | .hbm, ⟨24, _⟩ => ⟨S512x512x8, .f32⟩
  | .hbm, ⟨25, _⟩ => ⟨S512x512x8, .f32⟩
  | .hbm, ⟨26, _⟩ => ⟨S512x4096, .f32⟩
  | .hbm, ⟨27, _⟩ => ⟨S512x4096x1, .f32⟩
  | .hbm, ⟨28, _⟩ => ⟨S512x8x1, .f32⟩
  | .hbm, ⟨29, _⟩ => ⟨S512x8, .f32⟩
  | .hbm, ⟨30, _⟩ => ⟨S512x1x8, .f32⟩
  | .hbm, ⟨31, _⟩ => ⟨S512x4096x8, .f32⟩
  | .hbm, ⟨32, _⟩ => ⟨S512x4096x8, .f32⟩
  | .hbm, ⟨33, _⟩ => ⟨S512x4096x8, .f32⟩
  | .hbm, ⟨34, _⟩ => ⟨S512x32768, .f32⟩
  | .hbm, ⟨35, _⟩ => ⟨S512x32768x1, .f32⟩
  | .hbm, ⟨36, _⟩ => ⟨S512x8x1, .f32⟩
  | .hbm, ⟨37, _⟩ => ⟨S512x8, .f32⟩
  | .hbm, ⟨38, _⟩ => ⟨S512x1x8, .f32⟩
  | .hbm, ⟨39, _⟩ => ⟨S512x32768x8, .f32⟩
  | .hbm, ⟨40, _⟩ => ⟨S512x32768x8, .f32⟩
  | .hbm, ⟨41, _⟩ => ⟨S512x32768x8, .f32⟩
  | .hbm, ⟨42, _⟩ => ⟨S512x262144, .f32⟩
  | _, _ => ⟨S512x8x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v41 : Ref sig .tc := ⟨.hbm, 42, rfl⟩

abbrev nD : Nat := 1
abbrev τ : Topo := Topo.v7x

variable {F : FTy → Type} [FloatOps F]

class Facts₀ : Prop where
  slices_S512x8x6_S512x8x1_0_0_0 : S512x8x6.Slices ![0, 0, 0] S512x8x1
  shapeCasts_S512x8x1_S512x8 : S512x8x1.ShapeCasts S512x8
  bcast_S512x8_S512x8x1_0_1 : S512x8.BroadcastsInDim S512x8x1 (![0, 1] : Fin 2 → Fin S512x8x1.rank)
  slices_S512x8x6_S512x8x1_0_0_1 : S512x8x6.Slices ![0, 0, 1] S512x8x1
  bcast_S512x8_S512x1x8_0_2 : S512x8.BroadcastsInDim S512x1x8 (![0, 2] : Fin 2 → Fin S512x1x8.rank)
  bcast_S512x8x1_S512x8x8_0_1_2 : S512x8x1.BroadcastsInDim S512x8x8 (![0, 1, 2] : Fin 3 → Fin S512x8x8.rank)
  bcast_S512x1x8_S512x8x8_0_1_2 : S512x1x8.BroadcastsInDim S512x8x8 (![0, 1, 2] : Fin 3 → Fin S512x8x8.rank)
  shapeCasts_S512x8x8_S512x64 : S512x8x8.ShapeCasts S512x64
  bcast_S512x64_S512x64x1_0_1 : S512x64.BroadcastsInDim S512x64x1 (![0, 1] : Fin 2 → Fin S512x64x1.rank)
  slices_S512x8x6_S512x8x1_0_0_2 : S512x8x6.Slices ![0, 0, 2] S512x8x1
  bcast_S512x64x1_S512x64x8_0_1_2 : S512x64x1.BroadcastsInDim S512x64x8 (![0, 1, 2] : Fin 3 → Fin S512x64x8.rank)
  bcast_S512x1x8_S512x64x8_0_1_2 : S512x1x8.BroadcastsInDim S512x64x8 (![0, 1, 2] : Fin 3 → Fin S512x64x8.rank)
  shapeCasts_S512x64x8_S512x512 : S512x64x8.ShapeCasts S512x512
  bcast_S512x512_S512x512x1_0_1 : S512x512.BroadcastsInDim S512x512x1 (![0, 1] : Fin 2 → Fin S512x512x1.rank)
  slices_S512x8x6_S512x8x1_0_0_3 : S512x8x6.Slices ![0, 0, 3] S512x8x1
  bcast_S512x512x1_S512x512x8_0_1_2 : S512x512x1.BroadcastsInDim S512x512x8 (![0, 1, 2] : Fin 3 → Fin S512x512x8.rank)
  bcast_S512x1x8_S512x512x8_0_1_2 : S512x1x8.BroadcastsInDim S512x512x8 (![0, 1, 2] : Fin 3 → Fin S512x512x8.rank)
  shapeCasts_S512x512x8_S512x4096 : S512x512x8.ShapeCasts S512x4096
  bcast_S512x4096_S512x4096x1_0_1 : S512x4096.BroadcastsInDim S512x4096x1 (![0, 1] : Fin 2 → Fin S512x4096x1.rank)
  slices_S512x8x6_S512x8x1_0_0_4 : S512x8x6.Slices ![0, 0, 4] S512x8x1
  bcast_S512x4096x1_S512x4096x8_0_1_2 : S512x4096x1.BroadcastsInDim S512x4096x8 (![0, 1, 2] : Fin 3 → Fin S512x4096x8.rank)
  bcast_S512x1x8_S512x4096x8_0_1_2 : S512x1x8.BroadcastsInDim S512x4096x8 (![0, 1, 2] : Fin 3 → Fin S512x4096x8.rank)
  shapeCasts_S512x4096x8_S512x32768 : S512x4096x8.ShapeCasts S512x32768
  bcast_S512x32768_S512x32768x1_0_1 : S512x32768.BroadcastsInDim S512x32768x1 (![0, 1] : Fin 2 → Fin S512x32768x1.rank)
  slices_S512x8x6_S512x8x1_0_0_5 : S512x8x6.Slices ![0, 0, 5] S512x8x1
  bcast_S512x32768x1_S512x32768x8_0_1_2 : S512x32768x1.BroadcastsInDim S512x32768x8 (![0, 1, 2] : Fin 3 → Fin S512x32768x8.rank)
  bcast_S512x1x8_S512x32768x8_0_1_2 : S512x1x8.BroadcastsInDim S512x32768x8 (![0, 1, 2] : Fin 3 → Fin S512x32768x8.rank)
  shapeCasts_S512x32768x8_S512x262144 : S512x32768x8.ShapeCasts S512x262144

variable [Facts₀]

class Facts : Prop extends Facts₀ where

variable [Facts]
-- ==== Proof.LibOuter.lean ====
/-
  General lemmas for kernels that build an outer product column by column, read at an index over the
  extended reals.

  * `column_eq`: the d-th column `x[:, :, d]` of an [n, m, k] array, taken as a unit slice on the last axis and
    a shape cast that drops it, is `(b, j) ↦ x (b, j, d)`.
  * `broadcastTo_col_apply`: an [n, 1] column broadcast along the lanes reads its row's entry.
  * `concat8_scaled`: eight copies of a row vector `cp` (width `W`), the k-th scaled row by row by entry k of an
    [n, 8] column block, laid side by side along the lanes: position `c` of the result is
    `col (b, c / W) * cp (b, c % W)` — the new factor is the slow index, the old ones the fast index.
  * `onehot_rowsum`: the row sum of an [n, 8] block masked to the lane whose number is a given word `j < 8`
    (zero elsewhere) is the block's column `j`: a sum with one nonzero term.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

namespace OuterLib

open Idealize.ShloMosaic Idealize.ShloMosaic.ValueIdx

/-- Column `d` of a rank-3 array: the unit slice at offset `d` on the last axis, its unit axis dropped. -/
theorem column_eq {α : Type} {n m k : Nat} (d : Nat) (x : (⟨3, ![n, m, k]⟩ : Shape).Idx → α)
    (hs : (⟨3, ![n, m, k]⟩ : Shape).Slices ![0, 0, d] ⟨3, ![n, m, 1]⟩)
    (hc : (⟨3, ![n, m, 1]⟩ : Shape).ShapeCasts ⟨2, ![n, m]⟩) (dd : Fin k) (hd : dd.val = d) :
    shapeCast ⟨2, ![n, m]⟩ (extractStridedSlice ⟨3, ![n, m, 1]⟩ ![0, 0, d] x hs) hc
      = fun j => x (ix3 (j 0) (j 1) dd) := by
  funext j
  obtain ⟨b, q, rfl⟩ : ∃ (b : Fin n) (q : Fin m), j = ix2 b q := ⟨j 0, j 1, eq_ix2 j⟩
  rw [shapeCast_apply _ hc (ix2 b q) (ix3 b q (0 : Fin 1)) (by
    rw [Shape.rowMajor_val_three, Shape.rowMajor_val_two]
    show (b.val * m + q.val) * 1 + 0 = b.val * m + q.val
    omega)]
  exact extractStridedSlice_apply _ _ hs _ (ix3 b q dd) (fun a => by
    match a with
    | ⟨0, _⟩ => exact (Nat.zero_add _).symm
    | ⟨1, _⟩ => exact (Nat.zero_add _).symm
    | ⟨2, _⟩ => exact hd)

/-- A column [n, 1] broadcast to [n, W] reads, at (b, q), the column's entry of row b. -/
theorem broadcastTo_col_apply {α : Type} {n W : Nat} (v : (⟨2, ![n, 1]⟩ : Shape).Idx → α)
    (h : (⟨2, ![n, 1]⟩ : Shape).Broadcasts ⟨2, ![n, W]⟩) (b : Fin n) (q : Fin W) :
    broadcastTo ⟨2, ![n, W]⟩ v h (ix2 b q) = v (ix2 b (0 : Fin 1)) :=
  broadcastTo_apply v h _ _ (fun a => by
    match a with
    | ⟨0, _⟩ =>
      show b.val = if n = 1 then 0 else b.val
      split
      · next h1 => have := b.isLt; omega
      · rfl
    | ⟨1, _⟩ => rfl)

/-- One scaled copy at an index: row b of `cp` times entry (b, k) of the column block. -/
theorem scaled_apply {n W : Nat} (o : Nat) (col : (⟨2, ![n, 8]⟩ : Shape).Idx → EReal)
    (cp : (⟨2, ![n, W]⟩ : Shape).Idx → EReal)
    (hs : (⟨2, ![n, 8]⟩ : Shape).Slices ![0, o] ⟨2, ![n, 1]⟩)
    (hb : (⟨2, ![n, 1]⟩ : Shape).Broadcasts ⟨2, ![n, W]⟩) (b : Fin n) (q : Fin W) (k : Fin 8) (hk : k.val = o) :
    mulf (F := Ideal) (φ := .f32) (broadcastTo ⟨2, ![n, W]⟩ (extractStridedSlice ⟨2, ![n, 1]⟩ ![0, o] col hs) hb) cp (ix2 b q)
      = col (ix2 b k) * cp (ix2 b q) := by
  rw [mulf_apply, broadcastTo_col_apply, slice2_axis1_apply o col hs b (0 : Fin 1) k (by simpa using hk)]

/-- Eight pieces of one shape [n, W] laid side by side along the lanes, read at (b, r): piece `r / W` at lane `r % W`. -/
theorem concat8_apply {α : Type} {n W T : Nat}
    (p0 p1 p2 p3 p4 p5 p6 p7 : (⟨2, ![n, W]⟩ : Shape).Idx → α)
    (hc : Shape.Concatenates (([⟨⟨2, ![n, W]⟩, p0⟩, ⟨⟨2, ![n, W]⟩, p1⟩, ⟨⟨2, ![n, W]⟩, p2⟩, ⟨⟨2, ![n, W]⟩, p3⟩, ⟨⟨2, ![n, W]⟩, p4⟩,
      ⟨⟨2, ![n, W]⟩, p5⟩, ⟨⟨2, ![n, W]⟩, p6⟩, ⟨⟨2, ![n, W]⟩, p7⟩] : List ((s : Shape) × (s.Idx → α))).map (·.1)) ⟨2, ![n, T]⟩ 1)
    (b : Fin n) (r : Fin T) (k : Fin 8) (q : Fin W) (hk : r.val / W = k.val) (hq : q.val = r.val % W) :
    concatenate ⟨2, ![n, T]⟩ 1 [⟨⟨2, ![n, W]⟩, p0⟩, ⟨⟨2, ![n, W]⟩, p1⟩, ⟨⟨2, ![n, W]⟩, p2⟩, ⟨⟨2, ![n, W]⟩, p3⟩, ⟨⟨2, ![n, W]⟩, p4⟩,
      ⟨⟨2, ![n, W]⟩, p5⟩, ⟨⟨2, ![n, W]⟩, p6⟩, ⟨⟨2, ![n, W]⟩, p7⟩] hc (ix2 b r)
      = (![p0, p1, p2, p3, p4, p5, p6, p7] k) (ix2 b q) :=
  concatenate_ofFn_apply (t := ⟨2, ![n, T]⟩) (s₁ := ⟨2, ![n, W]⟩) (1 : Fin 2) ![p0, p1, p2, p3, p4, p5, p6, p7] hc rfl W rfl
    (ix2 b r) k hk (ix2 b q) hq (fun a ha => by
      match a with
      | ⟨0, _⟩ => rfl
      | ⟨1, _⟩ => exact absurd rfl ha)

/-- Eight copies of `cp`, the k-th scaled row by row by column k of `col`, laid side by side: the result at
    (b, c) is `col (b, c / W) * cp (b, c % W)`. -/
theorem concat8_scaled {n W T : Nat} (hW : 0 < W) (hT : T = 8 * W)
    (col : (⟨2, ![n, 8]⟩ : Shape).Idx → EReal) (cp : (⟨2, ![n, W]⟩ : Shape).Idx → EReal)
    (hs0 : (⟨2, ![n, 8]⟩ : Shape).Slices ![0, 0] ⟨2, ![n, 1]⟩)
    (hs1 : (⟨2, ![n, 8]⟩ : Shape).Slices ![0, 1] ⟨2, ![n, 1]⟩)
    (hs2 : (⟨2, ![n, 8]⟩ : Shape).Slices ![0, 2] ⟨2, ![n, 1]⟩)
    (hs3 : (⟨2, ![n, 8]⟩ : Shape).Slices ![0, 3] ⟨2, ![n, 1]⟩)
    (hs4 : (⟨2, ![n, 8]⟩ : Shape).Slices ![0, 4] ⟨2, ![n, 1]⟩)
    (hs5 : (⟨2, ![n, 8]⟩ : Shape).Slices ![0, 5] ⟨2, ![n, 1]⟩)
    (hs6 : (⟨2, ![n, 8]⟩ : Shape).Slices ![0, 6] ⟨2, ![n, 1]⟩)
    (hs7 : (⟨2, ![n, 8]⟩ : Shape).Slices ![0, 7] ⟨2, ![n, 1]⟩)
    (hb : (⟨2, ![n, 1]⟩ : Shape).Broadcasts ⟨2, ![n, W]⟩)
    (hc : Shape.Concatenates [⟨2, ![n, W]⟩, ⟨2, ![n, W]⟩, ⟨2, ![n, W]⟩, ⟨2, ![n, W]⟩, ⟨2, ![n, W]⟩, ⟨2, ![n, W]⟩, ⟨2, ![n, W]⟩, ⟨2, ![n, W]⟩] ⟨2, ![n, T]⟩ 1) :
    concatenate ⟨2, ![n, T]⟩ 1
      [⟨⟨2, ![n, W]⟩, mulf (F := Ideal) (φ := .f32) (broadcastTo ⟨2, ![n, W]⟩ (extractStridedSlice ⟨2, ![n, 1]⟩ ![0, 0] col hs0) hb) cp⟩,
       ⟨⟨2, ![n, W]⟩, mulf (F := Ideal) (φ := .f32) (broadcastTo ⟨2, ![n, W]⟩ (extractStridedSlice ⟨2, ![n, 1]⟩ ![0, 1] col hs1) hb) cp⟩,
       ⟨⟨2, ![n, W]⟩, mulf (F := Ideal) (φ := .f32) (broadcastTo ⟨2, ![n, W]⟩ (extractStridedSlice ⟨2, ![n, 1]⟩ ![0, 2] col hs2) hb) cp⟩,
       ⟨⟨2, ![n, W]⟩, mulf (F := Ideal) (φ := .f32) (broadcastTo ⟨2, ![n, W]⟩ (extractStridedSlice ⟨2, ![n, 1]⟩ ![0, 3] col hs3) hb) cp⟩,
       ⟨⟨2, ![n, W]⟩, mulf (F := Ideal) (φ := .f32) (broadcastTo ⟨2, ![n, W]⟩ (extractStridedSlice ⟨2, ![n, 1]⟩ ![0, 4] col hs4) hb) cp⟩,
       ⟨⟨2, ![n, W]⟩, mulf (F := Ideal) (φ := .f32) (broadcastTo ⟨2, ![n, W]⟩ (extractStridedSlice ⟨2, ![n, 1]⟩ ![0, 5] col hs5) hb) cp⟩,
       ⟨⟨2, ![n, W]⟩, mulf (F := Ideal) (φ := .f32) (broadcastTo ⟨2, ![n, W]⟩ (extractStridedSlice ⟨2, ![n, 1]⟩ ![0, 6] col hs6) hb) cp⟩,
       ⟨⟨2, ![n, W]⟩, mulf (F := Ideal) (φ := .f32) (broadcastTo ⟨2, ![n, W]⟩ (extractStridedSlice ⟨2, ![n, 1]⟩ ![0, 7] col hs7) hb) cp⟩] hc
      = fun j => col (ix2 (j 0) ⟨(j 1).val / W, Nat.div_lt_of_lt_mul (by have h : (j 1).val < T := (j 1).isLt; omega)⟩)
          * cp (ix2 (j 0) ⟨(j 1).val % W, Nat.mod_lt _ hW⟩) := by
  funext j
  obtain ⟨b, r, rfl⟩ : ∃ (b : Fin n) (r : Fin T), j = ix2 b r := ⟨j 0, j 1, eq_ix2 j⟩
  have hr : r.val < W * 8 := by have := r.isLt; omega
  show _ = col (ix2 b ⟨r.val / W, Nat.div_lt_of_lt_mul hr⟩) * cp (ix2 b ⟨r.val % W, Nat.mod_lt _ hW⟩)
  refine (concat8_apply _ _ _ _ _ _ _ _ hc b r ⟨r.val / W, Nat.div_lt_of_lt_mul hr⟩ ⟨r.val % W, Nat.mod_lt _ hW⟩ rfl rfl).trans ?_
  generalize (⟨r.val / W, Nat.div_lt_of_lt_mul hr⟩ : Fin 8) = k
  generalize (⟨r.val % W, Nat.mod_lt _ hW⟩ : Fin W) = q
  fin_cases k
  · exact scaled_apply 0 col cp hs0 hb b q _ rfl
  · exact scaled_apply 1 col cp hs1 hb b q _ rfl
  · exact scaled_apply 2 col cp hs2 hb b q _ rfl
  · exact scaled_apply 3 col cp hs3 hb b q _ rfl
  · exact scaled_apply 4 col cp hs4 hb b q _ rfl
  · exact scaled_apply 5 col cp hs5 hb b q _ rfl
  · exact scaled_apply 6 col cp hs6 hb b q _ rfl
  · exact scaled_apply 7 col cp hs7 hb b q _ rfl

/-- The row sum of an [n, 8] block masked to the one lane whose number is the word `w = k` (zero elsewhere), kept as
    an [n, 1] column: the block's column k. The sum has one nonzero term. -/
theorem onehot_rowsum {n : Nat} (v : (⟨2, ![n, 8]⟩ : Shape).Idx → EReal) (w : BitVec 32) (k : Fin 8)
    (hw : w = BitVec.ofNat 32 k.val) (z : EReal) (hz : z = 0)
    (hi : (⟨2, ![n, 8]⟩ : Shape).Iotas .tc 32 [1])
    (hr : (⟨2, ![n, 8]⟩ : Shape).Reduces [1] ⟨1, ![n]⟩) (hφ : FKind.Formats .f32)
    (hacc : (0x00000000#32 : BitVec 32) = FKind.add.neutral .f32 hφ)
    (hc : (⟨1, ![n]⟩ : Shape).ShapeCasts ⟨2, ![n, 1]⟩) :
    shapeCast ⟨2, ![n, 1]⟩ (multiReduction (F := Ideal) (φ := .f32) .add [1] ⟨1, ![n]⟩
        (select (cmpi .eq (iota .tc ⟨2, ![n, 8]⟩ 32 [1] hi) (broadcast ⟨2, ![n, 8]⟩ w)) v (broadcast ⟨2, ![n, 8]⟩ z))
        0x00000000#32 hr hφ hacc) hc
      = fun j => v (ix2 (j 0) k) := by
  funext j
  obtain ⟨b, e, rfl⟩ : ∃ (b : Fin n) (e : Fin 1), j = ix2 b e := ⟨j 0, j 1, eq_ix2 j⟩
  rw [shapeCast_apply _ hc (ix2 b e) (ix1 b) (by
    rw [Shape.rowMajor_val_one, Shape.rowMajor_val_two]
    show b.val = b.val * 1 + e.val
    have := e.isLt; omega)]
  rw [Ideal.multiReduction_add_single]
  have hl : ∀ k' : Fin 8, hr.lift (ix1 b) k' = ix2 b k' := fun k' => funext fun a => Fin.ext (by
    match a with
    | ⟨0, _⟩ => rfl
    | ⟨1, _⟩ => rfl)
  show ∑ k' : Fin 8, select (cmpi .eq (iota .tc ⟨2, ![n, 8]⟩ 32 [1] hi) (broadcast ⟨2, ![n, 8]⟩ w)) v (broadcast ⟨2, ![n, 8]⟩ z) (hr.lift (ix1 b) k') = v (ix2 b k)
  have hio : ∀ k' : Fin 8, iota .tc ⟨2, ![n, 8]⟩ 32 [1] hi (ix2 b k') = BitVec.ofNat 32 k'.val := fun k' =>
    iota_single_apply .tc ⟨2, ![n, 8]⟩ 32 (1 : Fin 2) hi (ix2 b k')
  simp only [hl, select_apply, cmpi, broadcast_apply, hio]
  rw [Finset.sum_eq_single k]
  · rw [hw, show IntOp.cmpi .eq (BitVec.ofNat 32 k.val) (BitVec.ofNat 32 k.val) = 1#1 from
      StableHlo.Predicate.cmpi_eq_iff.2 rfl, select_one]
  · intro k' _ hne
    have hn : IntOp.cmpi .eq (BitVec.ofNat 32 k'.val) w ≠ 1#1 := fun h => hne (by
      have h2 := StableHlo.Predicate.cmpi_eq_iff.1 h
      rw [hw] at h2
      have h3 := congrArg BitVec.toNat h2
      simp only [BitVec.toNat_ofNat] at h3
      have h4 : k'.val % 2 ^ 32 = k.val % 2 ^ 32 := h3
      have := k.isLt; have := k'.isLt
      exact Fin.ext (by omega))
    rw [eq_zero_of_ne_one hn, select_zero, hz]
  · intro h; exact absurd (Finset.mem_univ _) h

end OuterLib

end
-- ==== Proof.Payload.lean ====
/-
  What the kernel body stores, at an entry.

  At grid point (i, j0, j1) the body loads the [8, 8, 6] block `x` of eight samples and stores an [8, 4096] block.
  It folds the columns 5, 4, 3, 2 from the fast side: `cp ← concat_k (col_d[:, k] * cp)`, so that the newly folded
  column takes the SLOW position — entry (b, c) of the folded vector is `col_d (b, c / W) * cp (b, c % W)` with `W` the
  width before the step. The columns 0 and 1 are taken at the single lanes `j0` and `j1` the grid point names, each by
  a one-hot mask and a row sum. The stored entry (b, r) is therefore

      x (b, j0, 0) * (x (b, j1, 1) * (x (b, r / 512, 2) * (x (b, r % 512 / 64, 3) * (x (b, r % 64 / 8, 4) * x (b, r % 8, 5))))).
-/
import proofs.«423305_j18537078849734_4_alg».proof.Proof.Gen.KernelIdeal.Skeleton
import proofs.«423305_j18537078849734_4_alg».proof.Proof.LibOuter

noncomputable section

namespace Cert.KernelIdeal.Body

open Cert.KernelIdeal Cert.KernelIdeal.Gen Idealize.ShloMosaic Idealize.ShloMosaic.ValueIdx OuterLib

variable (x : FVec Ideal S8x8x6 .f32)

/-! ## The columns the body slices out of the block -/

theorem col0_eq : k0_pay1 (F := Ideal) x = fun j => x (ix3 (j 0) (j 1) 0) := by
  unfold k0_pay1
  exact column_eq 0 x _ _ 0 rfl

theorem col1_eq : k0_pay2 (F := Ideal) x = fun j => x (ix3 (j 0) (j 1) 1) := by
  unfold k0_pay2
  exact column_eq 1 x _ _ 1 rfl

theorem col2_eq : k0_pay3 (F := Ideal) x = fun j => x (ix3 (j 0) (j 1) 2) := by
  unfold k0_pay3
  exact column_eq 2 x _ _ 2 rfl

theorem col3_eq : k0_pay4 (F := Ideal) x = fun j => x (ix3 (j 0) (j 1) 3) := by
  unfold k0_pay4
  exact column_eq 3 x _ _ 3 rfl

/-! ## The fold of columns 5 and 4 -/

/-- Column 4 folded onto column 5: width 64, column 4 the slow index. -/
theorem fold54_eq : k0_pay5 (F := Ideal) x
    = fun j => x (ix3 (j 0) ⟨(j 1).val / 8, Nat.div_lt_of_lt_mul (by have h : (j 1).val < 64 := (j 1).isLt; omega)⟩ 4)
        * x (ix3 (j 0) ⟨(j 1).val % 8, Nat.mod_lt _ (by decide)⟩ 5) := by
  unfold k0_pay5
  refine (concat8_scaled (n := 8) (W := 8) (T := 64) (by decide) rfl _ _ _ _ _ _ _ _ _ _ _ _).trans ?_
  rw [column_eq 4 x _ _ 4 rfl, column_eq 5 x _ _ 5 rfl]

/-! ## The stored value at an entry -/

/-- Entry (b, r) of the block the body stores at a grid point whose coordinates 1 and 2 are `j0` and `j1`: the six-fold
    product, bracketed from the right, the columns 2 … 5 at the base-8 digits of `r`. -/
theorem stored_apply (j0 j1 : Fin 8) (b : Fin 8) (r : Fin 4096) :
    k0_pay12 (F := Ideal) (BitVec.ofNat 32 j0.val) (BitVec.ofNat 32 j1.val) (k0_pay1 x) (k0_pay2 x) (k0_pay3 x) (k0_pay4 x) (k0_pay5 x)
      (k0_pay6 x) (k0_pay7 x) (k0_pay8 x) (k0_pay9 x) (k0_pay10 x) (k0_pay11 x) (ix2 b r)
      = x (ix3 b j0 0) * (x (ix3 b j1 1) * (x (ix3 b ⟨r.val / 512, by have := r.isLt; omega⟩ 2)
          * (x (ix3 b ⟨r.val % 512 / 64, by have := r.isLt; omega⟩ 3)
            * (x (ix3 b ⟨r.val % 512 % 64 / 8, by have := r.isLt; omega⟩ 4)
              * x (ix3 b ⟨r.val % 512 % 64 % 8, by have := r.isLt; omega⟩ 5))))) := by
  unfold k0_pay12 k0_pay6 k0_pay7 k0_pay8 k0_pay9 k0_pay10 k0_pay11
  dsimp only
  rw [concat8_scaled (n := 8) (W := 64) (T := 512) (by decide) rfl]
  rw [concat8_scaled (n := 8) (W := 512) (T := 4096) (by decide) rfl]
  have hz : FloatOps.ofBits (F := Ideal) .f32 0x00000000#32 = (0 : EReal) := Ideal.ofBits_zero_f32
  erw [onehot_rowsum (n := 8) (k0_pay1 (F := Ideal) x) _ j0 rfl _ hz,
    onehot_rowsum (n := 8) (k0_pay2 (F := Ideal) x) _ j1 rfl _ hz]
  rw [mulf_apply, mulf_apply, broadcastTo_col_apply, broadcastTo_col_apply, col0_eq, col1_eq, col2_eq, col3_eq, fold54_eq]

end Cert.KernelIdeal.Body

end
-- ==== Proof.Spec.lean ====
/-
  The function both programs compute. The input is `x : [512, 8, 6]`: for each sample `B`, six membership
  columns `x (B, ·, d)`, `d = 0 … 5`, of width 8. The output is `[512, 8^6]`: the full outer product of the six
  columns, flattened row-major with column 0 the slowest index and column 5 the fastest,

      out (B, c) = ∏_{d = 0}^{5} x (B, digit_{5-d}(c), d),      c = ∑_k digit_k(c) · 8^k,   digit_k(c) = c / 8^k % 8.

  Multiplication on the extended reals is commutative and associative (also at the infinities and at `0 · ∞ = 0`),
  so the product needs no bracketing convention to be well defined, and no finiteness of the entries; the two
  programs differ only in how they bracket it and in how they write the digits.
-/
import Idealize.ShloMosaic.PureOps.Ideal
import Idealize.ShloMosaic.Lib.ValueIdx

noncomputable section

namespace RuleProduct

open Idealize.ShloMosaic Idealize.ShloMosaic.ValueIdx

/-- The base-8 digit of `c` at weight `k` (`k` a power of 8). -/
def digit (k c : Nat) : Fin 8 := ⟨c / k % 8, Nat.mod_lt _ (by decide)⟩

theorem digit_val (k c : Nat) : (digit k c).val = c / k % 8 := rfl

/-- The product of six entries of sample `B`, one per column, bracketed from the left. -/
def prod6 (x : (⟨3, ![512, 8, 6]⟩ : Shape).Idx → EReal) (B : Fin 512) (a0 a1 a2 a3 a4 a5 : Fin 8) : EReal :=
  x (ix3 B a0 0) * x (ix3 B a1 1) * x (ix3 B a2 2) * x (ix3 B a3 3) * x (ix3 B a4 4) * x (ix3 B a5 5)

/-- THE RESULT ARRAY as one function of the argument array: entry (B, c) is the product over the six columns of the
    entry the corresponding base-8 digit of `c` selects, the most significant digit for column 0. -/
def G (x : (⟨3, ![512, 8, 6]⟩ : Shape).Idx → EReal) : (⟨2, ![512, 262144]⟩ : Shape).Idx → EReal := fun i =>
  prod6 x (i 0) (digit 32768 (i 1).val) (digit 4096 (i 1).val) (digit 512 (i 1).val) (digit 64 (i 1).val)
    (digit 8 (i 1).val) (digit 1 (i 1).val)

theorem G_apply (x : (⟨3, ![512, 8, 6]⟩ : Shape).Idx → EReal) (B : Fin 512) (c : Fin 262144) :
    G x (ix2 B c) = prod6 x B (digit 32768 c.val) (digit 4096 c.val) (digit 512 c.val) (digit 64 c.val)
      (digit 8 c.val) (digit 1 c.val) := rfl

/-- Two such products agree when the selected entries do, digit by digit. -/
theorem prod6_congr (x : (⟨3, ![512, 8, 6]⟩ : Shape).Idx → EReal) (B : Fin 512) {a0 a1 a2 a3 a4 a5 b0 b1 b2 b3 b4 b5 : Fin 8}
    (h0 : a0.val = b0.val) (h1 : a1.val = b1.val) (h2 : a2.val = b2.val) (h3 : a3.val = b3.val) (h4 : a4.val = b4.val)
    (h5 : a5.val = b5.val) : prod6 x B a0 a1 a2 a3 a4 a5 = prod6 x B b0 b1 b2 b3 b4 b5 := by
  rw [Fin.ext h0, Fin.ext h1, Fin.ext h2, Fin.ext h3, Fin.ext h4, Fin.ext h5]

/-- The same six factors bracketed from the right: associativity of the product on the extended reals. -/
theorem prod6_right (x : (⟨3, ![512, 8, 6]⟩ : Shape).Idx → EReal) (B : Fin 512) (a0 a1 a2 a3 a4 a5 : Fin 8) :
    x (ix3 B a0 0) * (x (ix3 B a1 1) * (x (ix3 B a2 2) * (x (ix3 B a3 3) * (x (ix3 B a4 4) * x (ix3 B a5 5)))))
      = prod6 x B a0 a1 a2 a3 a4 a5 := by
  unfold prod6
  simp only [mul_assoc]

end RuleProduct

end
-- ==== Proof.Blocks.lean ====
/-
  From the blocks to the array.

  The grid has 64 · 8 · 8 points; point `t` has coordinates (i, j0, j1) = (t / 64, t / 8 % 8, t % 8). It reads rows
  `8 i … 8 i + 7` of the argument (all 8 · 6 entries of each) and writes the [8, 4096] block at block position
  (i, 8 j0 + j1) = (t / 64, t % 64) of the [512, 8^6] result. Within the block, the body's stored entry (b, r) is the
  six-fold product with columns 0 and 1 at `j0`, `j1` and columns 2 … 5 at the base-8 digits of `r`; the array column
  of that entry is `c = (8 j0 + j1) · 4096 + r`, whose six base-8 digits are exactly `j0, j1` and the digits of `r`. So
  each point writes its block of the one function `G`, the blocks tile the array, and the array ends at `G`.
-/
import proofs.«423305_j18537078849734_4_alg».proof.Proof.FrameKernelIdeal
import proofs.«423305_j18537078849734_4_alg».proof.Proof.Payload
import proofs.«423305_j18537078849734_4_alg».proof.Proof.Spec
import Idealize.ShloMosaic.Lib.Pipeline.Value

noncomputable section

namespace Cert.KernelIdeal.Blocks

open Cert.KernelIdeal Cert.KernelIdeal.Gen Cert.KernelIdeal.GenP Cert.KernelIdeal.Body
open Idealize.ShloMosaic Idealize.ShloMosaic.TcCoe Idealize.SL.Sem Idealize.ShloMosaic.ValueIdx RuleProduct
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

theorem point_lt (t : Fin cfg0.N) : t.val < 4096 := lt_of_lt_of_eq t.isLt N_0

/-- The printed index maps and the grid's coordinates in closed form, decided over the 4096 points: the input window
    moves with `t / 64` on the rows only, the output window is at block (t / 64, t % 64), and the grid coordinates 1 and
    2 are the two base-8 digits of `t % 64`. -/
theorem idx_facts : ∀ t : Fin cfg0.N,
    win0_0.index t (0 : Fin 3) = t.val / 64 ∧ win0_0.index t (1 : Fin 3) = 0 ∧ win0_0.index t (2 : Fin 3) = 0
    ∧ win0_1.index t (0 : Fin 2) = t.val / 64 ∧ win0_1.index t (1 : Fin 2) = t.val % 64
    ∧ (grid0.coords t 1).val = t.val / 8 % 8 ∧ (grid0.coords t 2).val = t.val % 8 :=
  (by decide +kernel : ∀ t : Fin grid0.N, _)

/-- The argument array as the region finds it, and the input window's block at a point, at their literal types. -/
abbrev xarr (c : Dev nD) : FVec Ideal S512x8x6 .f32 := V m c main_arg0
abbrev xblk (c : Dev nD) (t : Fin cfg0.N) : FVec Ideal S8x8x6 .f32 := iblk m c 0 t

/-- The input block at point `t` is rows `8 (t / 64) …` of the argument. -/
theorem xblk_apply (c : Dev nD) (t : Fin cfg0.N) (b k : Fin 8) (d : Fin 6) :
    xblk m c t (ix3 b k d) = xarr m c (ix3 ⟨t.val / 64 * 8 + b.val, by have := point_lt t; have := b.isLt; omega⟩ k d) := by
  obtain ⟨e0, e1, e2, -, -, -, -⟩ := idx_facts t
  show V m c main_arg0 (((cfg0.win 0).blk t).view.emb (ix3 b k d)) = V m c main_arg0 _
  refine congrArg (V m c main_arg0) (funext fun a => Fin.ext ?_)
  match a with
  | ⟨0, _⟩ => show win0_0.index t (0 : Fin 3) * 8 + 1 * b.val = t.val / 64 * 8 + b.val; rw [e0]; omega
  | ⟨1, _⟩ => show win0_0.index t (1 : Fin 3) * 8 + 1 * k.val = k.val; rw [e1]; omega
  | ⟨2, _⟩ => show win0_0.index t (2 : Fin 3) * 6 + 1 * d.val = d.val; rw [e2]; omega

/-- The right-bracketed product of six entries of the block is the left-bracketed product of the same entries of the
    argument's rows. -/
theorem block_product (c : Dev nD) (t : Fin cfg0.N) (b : Fin 8) (a0 a1 a2 a3 a4 a5 : Fin 8) :
    xblk m c t (ix3 b a0 0) * (xblk m c t (ix3 b a1 1) * (xblk m c t (ix3 b a2 2) * (xblk m c t (ix3 b a3 3)
        * (xblk m c t (ix3 b a4 4) * xblk m c t (ix3 b a5 5)))))
      = prod6 (xarr m c) ⟨t.val / 64 * 8 + b.val, by have := point_lt t; have := b.isLt; omega⟩ a0 a1 a2 a3 a4 a5 := by
  rw [xblk_apply, xblk_apply, xblk_apply, xblk_apply, xblk_apply, xblk_apply, prod6_right]

/-- WHAT POINT `t` WRITES BACK is block `t` of `G` of the argument. -/
theorem flushed_eq (c : Dev nD) (t : Fin cfg0.N) :
    (dats m 0 c).flushed 1 t = ((cfg0.win 1).blk t).view.read (Elt Ideal) (G (xarr m c)) := by
  show (cfg0.win 1).cut (grid0.coords t) ((dats m 0 c).after 1 t) = _
  rw [after0_1]
  unfold out0_1
  rw [View.canon_unit_zero hz2]
  simp only [View.ld_unit_zero (S := S8x8x6) hz3]
  obtain ⟨-, -, -, e3, e4, e5, e6⟩ := idx_facts t
  have ht := point_lt t
  funext y
  obtain ⟨b, r, rfl⟩ : ∃ (b : Fin 8) (r : Fin 4096), y = ix2 b r := ⟨y 0, y 1, eq_ix2 y⟩
  have hb := b.isLt
  have hr := r.isLt
  refine (stored_apply (xblk m c t) (grid0.coords t 1) (grid0.coords t 2) b r).trans
    ((block_product m c t b _ _ _ _ _ _).trans ?_)
  show _ = G (xarr m c) (((cfg0.win 1).blk t).view.emb (ix2 b r))
  have hemb : ((cfg0.win 1).blk t).view.emb (ix2 b r)
      = ix2 (⟨t.val / 64 * 8 + b.val, by omega⟩ : Fin 512) (⟨t.val % 64 * 4096 + r.val, by omega⟩ : Fin 262144) :=
    funext fun a => Fin.ext (by
      match a with
      | ⟨0, _⟩ => show win0_1.index t (0 : Fin 2) * 8 + 1 * b.val = t.val / 64 * 8 + b.val; rw [e3]; omega
      | ⟨1, _⟩ => show win0_1.index t (1 : Fin 2) * 4096 + 1 * r.val = t.val % 64 * 4096 + r.val; rw [e4]; omega)
  rw [hemb, G_apply]
  refine prod6_congr _ _ ?_ ?_ ?_ ?_ ?_ ?_
  · show (grid0.coords t 1).val = (t.val % 64 * 4096 + r.val) / 32768 % 8; rw [e5]; omega
  · show (grid0.coords t 2).val = (t.val % 64 * 4096 + r.val) / 4096 % 8; rw [e6]; omega
  · show r.val / 512 = (t.val % 64 * 4096 + r.val) / 512 % 8; omega
  · show r.val % 512 / 64 = (t.val % 64 * 4096 + r.val) / 64 % 8; omega
  · show r.val % 512 % 64 / 8 = (t.val % 64 * 4096 + r.val) / 8 % 8; omega
  · show r.val % 512 % 64 % 8 = (t.val % 64 * 4096 + r.val) / 1 % 8; omega

/-- An index of the result array is in point `t`'s block iff each coordinate is in the block's range on its axis. -/
theorem mem_blk (t : Fin cfg0.N) (i : S512x262144.Idx) :
    i ∈ ((cfg0.win 1).blk t).view.set ↔ ∀ a : Fin 2, win0_1.index t a * S8x4096.size a ≤ (i a).val
      ∧ (i a).val < win0_1.index t a * S8x4096.size a + S8x4096.size a := by
  show i ∈ ((View.whole main_v0).slice (win0_1.rect t)).set ↔ _
  rw [View.set_slice_whole, Rect.mem_set_unit]
  exact Iff.rfl

/-- The blocks tile the array: entry (R, C) lies in the block of the point `(R / 8) · 64 + C / 4096`. -/
theorem cover (i : S512x262144.Idx) :
    ∃ t : Fin cfg0.N, (cfg0.win 1).flush t = true ∧ i ∈ ((cfg0.win 1).blk t).view.set := by
  have h0 : (i 0).val < 512 := (i 0).isLt
  have h1 : (i 1).val < 262144 := (i 1).isLt
  have hN : (i 0).val / 8 * 64 + (i 1).val / 4096 < cfg0.N := by rw [show cfg0.N = 4096 from N_0]; omega
  refine ⟨⟨(i 0).val / 8 * 64 + (i 1).val / 4096, hN⟩, flush0_1 _, ?_⟩
  obtain ⟨-, -, -, e3, e4, -, -⟩ := idx_facts ⟨(i 0).val / 8 * 64 + (i 1).val / 4096, hN⟩
  have e3' : win0_1.index ⟨(i 0).val / 8 * 64 + (i 1).val / 4096, hN⟩ (0 : Fin 2) = ((i 0).val / 8 * 64 + (i 1).val / 4096) / 64 := e3
  have e4' : win0_1.index ⟨(i 0).val / 8 * 64 + (i 1).val / 4096, hN⟩ (1 : Fin 2) = ((i 0).val / 8 * 64 + (i 1).val / 4096) % 64 := e4
  rw [mem_blk]
  intro a
  match a with
  | ⟨0, _⟩ =>
    show win0_1.index ⟨(i 0).val / 8 * 64 + (i 1).val / 4096, hN⟩ (0 : Fin 2) * 8 ≤ (i 0).val
      ∧ (i 0).val < win0_1.index ⟨(i 0).val / 8 * 64 + (i 1).val / 4096, hN⟩ (0 : Fin 2) * 8 + 8
    rw [e3']; omega
  | ⟨1, _⟩ =>
    show win0_1.index ⟨(i 0).val / 8 * 64 + (i 1).val / 4096, hN⟩ (1 : Fin 2) * 4096 ≤ (i 1).val
      ∧ (i 1).val < win0_1.index ⟨(i 0).val / 8 * 64 + (i 1).val / 4096, hN⟩ (1 : Fin 2) * 4096 + 4096
    rw [e4']; omega

/-- THE RESULT ARRAY after the run is `G` of the argument. -/
theorem final (c : Dev nD) : (dats m 0 c).arrAt 1 cfg0.N = G (xarr m c) :=
  (dats m 0 c).arrAt_eq_of_cover 1 (G (xarr m c)) (fun t _ => flushed_eq m c t) cover

/-- The frame run re-posted: the result array at `G` of the argument, the argument unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨((h c).1 1).trans (final m c),
      ((h c).1 0).trans (((dats m 0 c).arrAt_in 0 rfl _).trans ((A_eq m c 0).trans (V_main_arg0 m c)))⟩)
    (run_main m ρ)

end Cert.KernelIdeal.Blocks

end
-- ==== Proof.Reference.lean ====
/-
  The reference's result as the function `G` of its argument.

  The reference builds the outer product one column at a time: starting from column 0, `cp ← (cp[:, :, None] *
  x[:, None, :, d]).reshape(B, -1)` for `d = 1 … 5`. Read at an entry, one such step is

      cp_d (B, c) = cp_{d-1} (B, c / 8) * x (B, c % 8, d),

  the new column taking the fast position; five steps give the six-fold product bracketed from the left, with the
  digits of `c` written as iterated quotients by 8.
-/
import proofs.«423305_j18537078849734_4_alg».proof.Proof.Gen.ReferenceIdeal.Run
import proofs.«423305_j18537078849734_4_alg».proof.Proof.Gen.ReferenceIdeal.Read
import proofs.«423305_j18537078849734_4_alg».proof.Proof.Spec

noncomputable section

namespace Cert.ReferenceIdeal.RefValue

open Cert.ReferenceIdeal Cert.ReferenceIdeal.Gen Cert.ReferenceIdeal.Read Idealize.ShloMosaic Idealize.ShloMosaic.ValueIdx RuleProduct

variable (x : FVec Ideal S512x8x6 .f32)

/-! ## The six columns: a unit slice on the last axis, its unit axis dropped -/

/-- Column 0 of the argument, as a [512, 8] matrix. -/
theorem col0_apply (B : Fin 512) (j : Fin 8) : val_main_v1 (F := Ideal) x (ix2 B j) = x (ix3 B j 0) := by
  rw [val_main_v1_apply, val_main_v0_apply]
  have hj : j.val < 8 := j.isLt
  refine congrArg x (funext fun a => Fin.ext ?_)
  match a with
  | ⟨0, _⟩ => show (B.val * 8 + j.val) / 8 = B.val; omega
  | ⟨1, _⟩ => show (B.val * 8 + j.val) / 1 % 8 = j.val; omega
  | ⟨2, _⟩ => show 0 = 0; rfl

/-- Column 1 of the argument, as a [512, 8] matrix. -/
theorem col1_apply (B : Fin 512) (j : Fin 8) : val_main_v4 (F := Ideal) x (ix2 B j) = x (ix3 B j 1) := by
  rw [val_main_v4_apply, val_main_v3_apply]
  have hj : j.val < 8 := j.isLt
  refine congrArg x (funext fun a => Fin.ext ?_)
  match a with
  | ⟨0, _⟩ => show (B.val * 8 + j.val) / 8 = B.val; omega
  | ⟨1, _⟩ => show (B.val * 8 + j.val) / 1 % 8 = j.val; omega
  | ⟨2, _⟩ => show 1 + 0 = 1; rfl

/-- Column 2 of the argument, as a [512, 8] matrix. -/
theorem col2_apply (B : Fin 512) (j : Fin 8) : val_main_v12 (F := Ideal) x (ix2 B j) = x (ix3 B j 2) := by
  rw [val_main_v12_apply, val_main_v11_apply]
  have hj : j.val < 8 := j.isLt
  refine congrArg x (funext fun a => Fin.ext ?_)
  match a with
  | ⟨0, _⟩ => show (B.val * 8 + j.val) / 8 = B.val; omega
  | ⟨1, _⟩ => show (B.val * 8 + j.val) / 1 % 8 = j.val; omega
  | ⟨2, _⟩ => show 2 + 0 = 2; rfl

/-- Column 3 of the argument, as a [512, 8] matrix. -/
theorem col3_apply (B : Fin 512) (j : Fin 8) : val_main_v20 (F := Ideal) x (ix2 B j) = x (ix3 B j 3) := by
  rw [val_main_v20_apply, val_main_v19_apply]
  have hj : j.val < 8 := j.isLt
  refine congrArg x (funext fun a => Fin.ext ?_)
  match a with
  | ⟨0, _⟩ => show (B.val * 8 + j.val) / 8 = B.val; omega
  | ⟨1, _⟩ => show (B.val * 8 + j.val) / 1 % 8 = j.val; omega
  | ⟨2, _⟩ => show 3 + 0 = 3; rfl

/-- Column 4 of the argument, as a [512, 8] matrix. -/
theorem col4_apply (B : Fin 512) (j : Fin 8) : val_main_v28 (F := Ideal) x (ix2 B j) = x (ix3 B j 4) := by
  rw [val_main_v28_apply, val_main_v27_apply]
  have hj : j.val < 8 := j.isLt
  refine congrArg x (funext fun a => Fin.ext ?_)
  match a with
  | ⟨0, _⟩ => show (B.val * 8 + j.val) / 8 = B.val; omega
  | ⟨1, _⟩ => show (B.val * 8 + j.val) / 1 % 8 = j.val; omega
  | ⟨2, _⟩ => show 4 + 0 = 4; rfl

/-- Column 5 of the argument, as a [512, 8] matrix. -/
theorem col5_apply (B : Fin 512) (j : Fin 8) : val_main_v36 (F := Ideal) x (ix2 B j) = x (ix3 B j 5) := by
  rw [val_main_v36_apply, val_main_v35_apply]
  have hj : j.val < 8 := j.isLt
  refine congrArg x (funext fun a => Fin.ext ?_)
  match a with
  | ⟨0, _⟩ => show (B.val * 8 + j.val) / 8 = B.val; omega
  | ⟨1, _⟩ => show (B.val * 8 + j.val) / 1 % 8 = j.val; omega
  | ⟨2, _⟩ => show 5 + 0 = 5; rfl

/-! ## One step: the product so far at `c / 8`, times the new column at `c % 8` -/

/-- Step 1: the [512, 8] product so far, and column 1, to [512, 64]. -/
theorem step1_apply (B : Fin 512) (c : Fin 64) :
    (val_main_v9 (F := Ideal) x (ix2 B c) : EReal)
      = (val_main_v1 (F := Ideal) x (ix2 B ⟨c.val / 8, by have := c.isLt; omega⟩) : EReal)
        * (val_main_v4 (F := Ideal) x (ix2 B ⟨c.val % 8, Nat.mod_lt _ (by decide)⟩) : EReal) := by
  rw [val_main_v9_apply, val_main_v8_apply, val_main_v6_apply, val_main_v2_apply, val_main_v7_apply, val_main_v5_apply,
    Ideal.mulf_def]
  have hc : c.val < 64 := c.isLt
  refine congrArg₂ (fun a b : EReal => a * b) (congrArg (val_main_v1 (F := Ideal) x) (funext fun a => Fin.ext ?_))
    (congrArg (val_main_v4 (F := Ideal) x) (funext fun a => Fin.ext ?_))
  · match a with
    | ⟨0, _⟩ => show (B.val * 64 + c.val) / 64 = B.val; omega
    | ⟨1, _⟩ => show (B.val * 64 + c.val) / 8 % 8 = c.val / 8; omega
  · match a with
    | ⟨0, _⟩ => show (B.val * 64 + c.val) / 64 = B.val; omega
    | ⟨1, _⟩ => show (B.val * 64 + c.val) % 8 = c.val % 8; omega

/-- Step 2: the [512, 64] product so far, and column 2, to [512, 512]. -/
theorem step2_apply (B : Fin 512) (c : Fin 512) :
    (val_main_v17 (F := Ideal) x (ix2 B c) : EReal)
      = (val_main_v9 (F := Ideal) x (ix2 B ⟨c.val / 8, by have := c.isLt; omega⟩) : EReal)
        * (val_main_v12 (F := Ideal) x (ix2 B ⟨c.val % 8, Nat.mod_lt _ (by decide)⟩) : EReal) := by
  rw [val_main_v17_apply, val_main_v16_apply, val_main_v14_apply, val_main_v10_apply, val_main_v15_apply, val_main_v13_apply,
    Ideal.mulf_def]
  have hc : c.val < 512 := c.isLt
  refine congrArg₂ (fun a b : EReal => a * b) (congrArg (val_main_v9 (F := Ideal) x) (funext fun a => Fin.ext ?_))
    (congrArg (val_main_v12 (F := Ideal) x) (funext fun a => Fin.ext ?_))
  · match a with
    | ⟨0, _⟩ => show (B.val * 512 + c.val) / 512 = B.val; omega
    | ⟨1, _⟩ => show (B.val * 512 + c.val) / 8 % 64 = c.val / 8; omega
  · match a with
    | ⟨0, _⟩ => show (B.val * 512 + c.val) / 512 = B.val; omega
    | ⟨1, _⟩ => show (B.val * 512 + c.val) % 8 = c.val % 8; omega

/-- Step 3: the [512, 512] product so far, and column 3, to [512, 4096]. -/
theorem step3_apply (B : Fin 512) (c : Fin 4096) :
    (val_main_v25 (F := Ideal) x (ix2 B c) : EReal)
      = (val_main_v17 (F := Ideal) x (ix2 B ⟨c.val / 8, by have := c.isLt; omega⟩) : EReal)
        * (val_main_v20 (F := Ideal) x (ix2 B ⟨c.val % 8, Nat.mod_lt _ (by decide)⟩) : EReal) := by
  rw [val_main_v25_apply, val_main_v24_apply, val_main_v22_apply, val_main_v18_apply, val_main_v23_apply, val_main_v21_apply,
    Ideal.mulf_def]
  have hc : c.val < 4096 := c.isLt
  refine congrArg₂ (fun a b : EReal => a * b) (congrArg (val_main_v17 (F := Ideal) x) (funext fun a => Fin.ext ?_))
    (congrArg (val_main_v20 (F := Ideal) x) (funext fun a => Fin.ext ?_))
  · match a with
    | ⟨0, _⟩ => show (B.val * 4096 + c.val) / 4096 = B.val; omega
    | ⟨1, _⟩ => show (B.val * 4096 + c.val) / 8 % 512 = c.val / 8; omega
  · match a with
    | ⟨0, _⟩ => show (B.val * 4096 + c.val) / 4096 = B.val; omega
    | ⟨1, _⟩ => show (B.val * 4096 + c.val) % 8 = c.val % 8; omega

/-- Step 4: the [512, 4096] product so far, and column 4, to [512, 32768]. -/
theorem step4_apply (B : Fin 512) (c : Fin 32768) :
    (val_main_v33 (F := Ideal) x (ix2 B c) : EReal)
      = (val_main_v25 (F := Ideal) x (ix2 B ⟨c.val / 8, by have := c.isLt; omega⟩) : EReal)
        * (val_main_v28 (F := Ideal) x (ix2 B ⟨c.val % 8, Nat.mod_lt _ (by decide)⟩) : EReal) := by
  rw [val_main_v33_apply, val_main_v32_apply, val_main_v30_apply, val_main_v26_apply, val_main_v31_apply, val_main_v29_apply,
    Ideal.mulf_def]
  have hc : c.val < 32768 := c.isLt
  refine congrArg₂ (fun a b : EReal => a * b) (congrArg (val_main_v25 (F := Ideal) x) (funext fun a => Fin.ext ?_))
    (congrArg (val_main_v28 (F := Ideal) x) (funext fun a => Fin.ext ?_))
  · match a with
    | ⟨0, _⟩ => show (B.val * 32768 + c.val) / 32768 = B.val; omega
    | ⟨1, _⟩ => show (B.val * 32768 + c.val) / 8 % 4096 = c.val / 8; omega
  · match a with
    | ⟨0, _⟩ => show (B.val * 32768 + c.val) / 32768 = B.val; omega
    | ⟨1, _⟩ => show (B.val * 32768 + c.val) % 8 = c.val % 8; omega

/-- Step 5: the [512, 32768] product so far, and column 5, to [512, 262144]. -/
theorem step5_apply (B : Fin 512) (c : Fin 262144) :
    (val_main_v41 (F := Ideal) x (ix2 B c) : EReal)
      = (val_main_v33 (F := Ideal) x (ix2 B ⟨c.val / 8, by have := c.isLt; omega⟩) : EReal)
        * (val_main_v36 (F := Ideal) x (ix2 B ⟨c.val % 8, Nat.mod_lt _ (by decide)⟩) : EReal) := by
  rw [val_main_v41_apply, val_main_v40_apply, val_main_v38_apply, val_main_v34_apply, val_main_v39_apply, val_main_v37_apply,
    Ideal.mulf_def]
  have hc : c.val < 262144 := c.isLt
  refine congrArg₂ (fun a b : EReal => a * b) (congrArg (val_main_v33 (F := Ideal) x) (funext fun a => Fin.ext ?_))
    (congrArg (val_main_v36 (F := Ideal) x) (funext fun a => Fin.ext ?_))
  · match a with
    | ⟨0, _⟩ => show (B.val * 262144 + c.val) / 262144 = B.val; omega
    | ⟨1, _⟩ => show (B.val * 262144 + c.val) / 8 % 32768 = c.val / 8; omega
  · match a with
    | ⟨0, _⟩ => show (B.val * 262144 + c.val) / 262144 = B.val; omega
    | ⟨1, _⟩ => show (B.val * 262144 + c.val) % 8 = c.val % 8; omega

/-! ## The reference is `G` -/

/-- The reference's result term is `G` of the argument: the five steps unrolled at an entry give the six-fold product
    bracketed from the left, and the iterated quotients by 8 are the base-8 digits of the column. -/
theorem ref_eq : (val_main_v41 (F := Ideal) x : (⟨2, ![512, 262144]⟩ : Shape).Idx → EReal) = G x := by
  funext i
  obtain ⟨B, c, rfl⟩ : ∃ (B : Fin 512) (c : Fin 262144), i = ix2 B c := ⟨i 0, i 1, eq_ix2 i⟩
  rw [step5_apply, step4_apply, step3_apply, step2_apply, step1_apply, col0_apply, col1_apply, col2_apply, col3_apply,
    col4_apply, col5_apply, G_apply]
  have hc : c.val < 262144 := c.isLt
  refine prod6_congr x B ?_ ?_ ?_ ?_ ?_ ?_
  · show c.val / 8 / 8 / 8 / 8 / 8 = c.val / 32768 % 8; omega
  · show c.val / 8 / 8 / 8 / 8 % 8 = c.val / 4096 % 8; omega
  · show c.val / 8 / 8 / 8 % 8 = c.val / 512 % 8; omega
  · show c.val / 8 / 8 % 8 = c.val / 64 % 8; omega
  · show c.val / 8 % 8 = c.val / 8 % 8; rfl
  · show c.val % 8 = c.val / 1 % 8; omega

end Cert.ReferenceIdeal.RefValue

end
-- ==== Proof.lean ====
/-
  The kernel and the reference compute the same array over the extended reals.

  Input `x : [512, 8, 6]`; output `[512, 8^6]`, entry (B, c) the product over the six columns `d` of `x (B, a_d, d)`
  where `a_0 … a_5` are the base-8 digits of `c`, most significant first (Proof/Spec.lean: `G`).

  * The reference folds the columns from column 0 on, the new column always the fast index: entry (B, c) of a step is
    the previous step's entry at `c / 8` times the new column's entry at `c % 8`; five steps bracket the product from
    the left (Proof/Reference.lean, over the generated read-at-an-index lemmas of the reference's run).
  * The kernel tiles the result in [8, 4096] blocks over a 64 · 8 · 8 grid. In a block it folds columns 5, 4, 3, 2 from
    the fast side, the newly folded column the slow index, takes columns 0 and 1 at the lanes the grid point names
    (a one-hot mask and a row sum: one nonzero term), and multiplies from the right (Proof/Payload.lean). The block of
    point (i, j0, j1) lands at rows `8 i …`, columns `(8 j0 + j1) · 4096 …`, so the digits of the array column are
    `j0, j1` and the digits of the position in the block; the blocks tile the array (Proof/Blocks.lean).
  * The two bracketings agree because multiplication on the extended reals is associative; nothing needs the entries
    finite, and the precondition is not opened.

  The frames of the two kernel programs are the generated frame run with the grid coordinate bound in the stored value
  (Proof/FrameKernel.lean, Proof/FrameKernelIdeal.lean); the reference's frame is its generated run with the result dropped.
  The idealization rewrote no operation, so `preserves` is `True`.
-/
import proofs.«423305_j18537078849734_4_alg».proof.Defs
import proofs.«423305_j18537078849734_4_alg».proof.Proof.Gen.Kernel
import proofs.«423305_j18537078849734_4_alg».proof.Proof.Gen.KernelIdeal
import proofs.«423305_j18537078849734_4_alg».proof.Proof.Gen.ReferenceIdeal
import proofs.«423305_j18537078849734_4_alg».proof.Proof.Gen.Pre_finite_inputs
import proofs.«423305_j18537078849734_4_alg».proof.Proof.FrameKernel
import proofs.«423305_j18537078849734_4_alg».proof.Proof.FrameKernelIdeal
import proofs.«423305_j18537078849734_4_alg».proof.Proof.Blocks
import proofs.«423305_j18537078849734_4_alg».proof.Proof.Reference
import Idealize.ShloMosaic.Adequacy
import Idealize.ShloMosaic.Init

noncomputable section

namespace Cert.Proof

open Idealize.ShloMosaic Idealize.SL.Sem

/-- The word-level kernel runs and leaves its argument unchanged. -/
theorem frame_kernel : Cert.frame_Kernel := fun m ρ _ => Cert.Kernel.GenP.frame m ρ

/-- So does the idealized kernel. -/
theorem frame_kernelIdeal : Cert.frame_KernelIdeal := fun m ρ _ => Cert.KernelIdeal.GenP.frame m ρ

/-- The reference runs and leaves its argument unchanged: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the result array at `G` of the argument: the kernel block by block, the reference step by
    step; the arguments agree, so the results are equal entry by entry. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, hagree c]
  exact Cert.ReferenceIdeal.RefValue.ref_eq _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
